-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 256]⟩ ⟨2, ![1, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S1x256 : Shape := ⟨2, ![1, 256]⟩
abbrev S2x1x256 : Shape := ⟨3, ![2, 1, 256]⟩
abbrev S_ : Shape := ⟨0, ![]⟩
abbrev S256 : Shape := ⟨1, ![256]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S2x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  shapeCasts_S1x256_S1x1x256 : S1x256.ShapeCasts S1x1x256
  inb_S2x1x256_S1x1x256_1_0_0 : ∀ a, (![1, 0, 0] : Fin 3 → Nat) a + S1x1x256.size a ≤ S2x1x256.size a
  squeezes_S1x1x256_S1x256 : S1x1x256.Squeezes S1x256
  inb_S1x256_S1x256_0_0 : ∀ a, (![0, 0] : Fin 2 → Nat) a + S1x256.size a ≤ S1x256.size a
  h_S1x256 : 0 < S1x256.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S512, .f32⟩
  | .hbm, ⟨3, _⟩ => ⟨S1x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.KernelPeer.lean ====
/-
  The mesh is 2 × 2, devices numbered row-major: device `c` sits at (c / 2, c % 2). The kernel talks to the
  device in the other row of its own column, `peer c` = (1 - c / 2, c % 2): 0 ↔ 2 and 1 ↔ 3, an involution
  without fixed points. What a device ends with is the sum of its own block's column sums and its peer's.
-/
import proofs.«901098_g7700000000001099_dist_sum_ax0_xy_m512_n256_v7x_xy2x2_f32_1_alg».proof.Proof.Gen.Kernel.Skeleton

noncomputable section

namespace Cert.KernelProof

open Cert.Kernel Cert.Kernel.Gen
open Idealize.ShloMosaic Idealize.SL.Sem

variable {F : FTy → Type} [FloatOps F]

/-- The device in the other row of the same column. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both device chains of the kernel (the barrier signal's and the copy's) name the peer. -/
theorem peer_val (c : Dev nD) : ((c.val % 2) + 2) - 2 * (c.val / 2) = (peer c).val := by revert c; decide
theorem dev1_eq (c : Dev nD) : (⟨k0_dev1 c, k0_dev1_lt c⟩ : Dev nD) = peer c := Fin.ext ((k0_dev1_eq c).trans (peer_val c))
theorem dev2_eq (c : Dev nD) : (⟨k0_dev2 c, k0_dev2_lt c⟩ : Dev nD) = peer c := Fin.ext ((k0_dev2_eq c).trans (peer_val c))

/-- The row a device sends: the column sums of its block, as the scratch slot holds them. -/
abbrev colSums (x : Vec F S512x256 .f32) : FVec F S1x1x256 .f32 := k0_pay2 x

/-- What a device's result block ends holding, from its own block and its peer's: own column sums plus the peer's. -/
def outVal (x xp : Vec F S512x256 .f32) : FVec F S1x256 .f32 := k0_pay1 (colSums x) (colSums xp)

end Cert.KernelProof

end
-- ==== Proof.KernelProto.lean ====
/-
  The cross-device protocol of the column-sum kernel, per device `c` with `p = peer c` (the device in the other row
  of its column).

  Three semaphores a device: the barrier semaphore of the collective (not scoped to the launch), the copy's send
  semaphore and its receive semaphore. One round each:
    barrier cell of `c`  — one duty of 1 unit, paid by `p`'s signal; it hands `c` the landing slot (slot 1) of `p`'s
                           scratch buffer, and that `p` is at round 0 of its receive cell: what `c`'s copy into `p` needs;
    receive cell of `c`  — one duty of the row's credit, paid by `p`'s copy landing; it hands `c` its slot 1 holding
                           `p`'s column sums;
    send cell of `c`     — one duty of the row's credit, paid by `c`'s own copy once slot 0 is read; it hands back the
                           half share of slot 0 the copy read through.
  The scratch buffer is two rows: slot 0 holds the device's own column sums (the copy's source), slot 1 is where the
  peer's land. The device adds the two while its own copy may still be reading slot 0: it keeps the other half share
  of slot 0 for that load, and nothing stores to slot 0 after the copy starts.
-/
import proofs.«901098_g7700000000001099_dist_sum_ax0_xy_m512_n256_v7x_xy2x2_f32_1_alg».proof.Proof.KernelPeer
import proofs.«901098_g7700000000001099_dist_sum_ax0_xy_m512_n256_v7x_xy2x2_f32_1_alg».proof.Proof.Gen.Kernel.Launch
import proofs.«901098_g7700000000001099_dist_sum_ax0_xy_m512_n256_v7x_xy2x2_f32_1_alg».proof.Proof.Gen.Kernel.Points
import Idealize.ShloMosaic.Lib.Pipeline.Launch
import Idealize.ShloMosaic.Lib.Pipeline.Kit
import Idealize.ShloMosaic.Lib.Writes
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round: duty names `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The memrefs, the two slots, the cells -/

abbrev xM : Memref sig .tc .vmem S512x256 .f32 := Memref.whole cc0_stg0_0
abbrev oM : Memref sig .tc .vmem S1x256 .f32 := Memref.whole cc0_stg1_0
abbrev cM : Memref sig .tc .vmem S2x1x256 .f32 := Memref.whole cc0_scratch0

/-- Row 0 and row 1 of the scratch buffer, as rectangles. -/
abbrev r0 : Rect S2x1x256 := Rect.unit (s := S2x1x256) ![0, 0, 0] S1x1x256.size inb_S2x1x256_S1x1x256_0_0_0
abbrev r1 : Rect S2x1x256 := Rect.unit (s := S2x1x256) ![1, 0, 0] S1x1x256.size inb_S2x1x256_S1x1x256_1_0_0
/-- The slots as the loads and the store go through them, -/
abbrev v0 : View sig .tc .vmem S1x1x256 .f32 := cM.access r0
abbrev v1 : View sig .tc .vmem S1x1x256 .f32 := cM.access r1
/-- and as the copy names them: the row sliced out and its leading unit axis dropped. -/
abbrev slot0M : Memref sig .tc .vmem S1x256 .f32 := (cM.slice r0 (fun _ => rfl)).squeeze S1x256 squeezes_S1x1x256_S1x256
abbrev slot1M : Memref sig .tc .vmem S1x256 .f32 := (cM.slice r1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (slot1M : Memref sig .tc .vmem S1x256 .f32).view.dmaCredit
theorem N_pos : 0 < N := View.dmaCredit_pos _ (by decide)

/-! ## Contents -/

/-- Device `c`'s block of the argument array, as its staging buffer holds it. -/
def xstg (c : Dev nD) : (cc0_stg0_0 : Ref sig .tc).ty.Contents (Elt F) :=
  (win0_0.blk (0 : Fin 1)).view.read (Elt F) ((st₀ m ρ).mem ((c : Thread nD τ).loc main_arg0))

/-- A scratch buffer of no particular contents, to write the rows into. -/
def zbuf : (cc0_scratch0 : Ref sig .tc).ty.Contents (Elt F) := fun _ => FloatOps.ofBits .f32 0x00000000#32

/-- The scratch buffer with row 0 the device's own column sums, -/
def buf0 (c : Dev nD) : (cc0_scratch0 : Ref sig .tc).ty.Contents (Elt F) := v0.write (Elt F) zbuf (colSums (xstg m ρ c)) Finset.univ
/-- and with row 1 the peer's. -/
def buf1 (c : Dev nD) : (cc0_scratch0 : Ref sig .tc).ty.Contents (Elt F) := v1.write (Elt F) zbuf (colSums (xstg m ρ (peer c))) Finset.univ

/-- What the device's result block ends holding. -/
def outAt (c : Dev nD) : (cc0_stg1_0 : Ref sig .tc).ty.Contents (Elt F) := outVal (xstg m ρ c) (xstg m ρ (peer c))

omit [FloatOps F] in
/-- Two writes of one row into different buffers agree on the row. -/
theorem write_agree {s : Shape} (v : View sig .tc .vmem s .f32) (f g : v.ty.Contents (Elt F)) (w : s.Idx → Elt F .f32) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ _), View.write_emb_of_mem _ _ (Finset.mem_univ _)]

omit [FloatOps F] in
/-- The copy writes through the squeezed slices what a store through the row's rectangle would: row 1 becomes row 0
    of the source buffer. -/
theorem land_eq (fd fs : (cc0_scratch0 : Ref sig .tc).ty.Contents (Elt F)) :
    (slot1M : Memref sig .tc .vmem S1x256 .f32).view.write (Elt F) fd ((slot0M : Memref sig .tc .vmem S1x256 .f32).view.read (Elt F) fs) Finset.univ
      = v1.write (Elt F) fd (v0.read (Elt F) fs) Finset.univ := by
  simp only [Memref.view_squeeze, Memref.view_slice]
  rw [View.write_reshape_univ]
  refine congrArg (fun w => v1.write (Elt F) fd w Finset.univ) (funext fun x => ?_)
  rw [View.read_apply, View.read_apply]
  simp

theorem read_buf0 (c : Dev nD) : v0.read (Elt F) (buf0 m ρ c) = colSums (xstg m ρ c) := View.read_write_univ _ _
theorem read_buf1 (c : Dev nD) : v1.read (Elt F) (buf1 m ρ c) = colSums (xstg m ρ (peer c)) := View.read_write_univ _ _

/-! ## The pieces of the scratch buffer a device holds -/

/-- Row 0 of device `c`'s scratch buffer at share `q`, -/
def pts0 (c : Dev nD) (q : PosShare TreeShare) (f : Buf (Elt F) ((slot0M : Memref sig .tc .vmem S1x256 .f32).view.loc (c : Thread nD τ))) : sProp 𝕄 :=
  (slot0M : Memref sig .tc .vmem S1x256 .f32).view.loc (c : Thread nD τ) ↦[(slot0M : Memref sig .tc .vmem S1x256 .f32).view.set]{q} f
/-- row 1, whole. -/
def pts1 (c : Dev nD) (f : Buf (Elt F) ((slot1M : Memref sig .tc .vmem S1x256 .f32).view.loc (c : Thread nD τ))) : sProp 𝕄 :=
  (slot1M : Memref sig .tc .vmem S1x256 .f32).view.loc (c : Thread nD τ) ↦[(slot1M : Memref sig .tc .vmem S1x256 .f32).view.set]{fullShare} f

omit [FloatOps F] in
instance pts0_storable (c : Dev nD) (q) (f) : BI.Storable (upEmb : UEmb _ 𝕄) (pts0 (F := F) c q f) := by unfold pts0; infer_instance
omit [FloatOps F] in
instance pts1_storable (c : Dev nD) (f) : BI.Storable (upEmb : UEmb _ 𝕄) (pts1 (F := F) c f) := by unfold pts1; infer_instance

omit [FloatOps F] in
theorem set0_eq : (slot0M : Memref sig .tc .vmem S1x256 .f32).view.set = v0.set := View.set_reshape _ _
omit [FloatOps F] in
theorem set1_eq : (slot1M : Memref sig .tc .vmem S1x256 .f32).view.set = v1.set := View.set_reshape _ _

/-! ## The schedule -/

/-- What `peer c`'s signal hands `c`: `peer c`'s landing row, and that `peer c` has reached round 0 of its receive cell. -/
def barPay (c : Dev nD) : sProp 𝕄 := iprop((∃ f, pts1 (peer c) f) ∗ reached ER (recvCell (peer c)) 0)
/-- What the landing hands `c`: its row 1 holding the peer's column sums. -/
def recvPay (c : Dev nD) : sProp 𝕄 := pts1 c (buf1 m ρ c)
/-- What the source's last read hands back: the half share of row 0 the copy read through. -/
def sendPay (c : Dev nD) : sProp 𝕄 := pts0 c fullShare.left (buf0 m ρ c)

abbrev IsCell (g : GSem nD τ sig) : Prop := g.1.2 = .tc ∧ (g.2 = .reg barS ∨ g.2 = .dma sendS.sem ∨ g.2 = .dma recvS.sem)

/-- One round, round 0, one duty a cell: a barrier cell's of one unit, a send or receive cell's of the row's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The rest of each cell's round, no duty taken: its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the row's credit (its copy) and its peer's barrier cell one unit (its signal,
    which comes first and peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0: a device waits on its barrier owing only
    a receive credit, and on the others owing nothing. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

/-- The scratch buffer whole, at some contents. -/
def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the scratch buffer whole again, the two own cells at zero, closed (the barrier cell is the runtime's:
    nothing to hand back). -/
def Φ₁ (c : Dev nD) : sProp 𝕄 := iprop(scrAny (F := F) c ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, and what it ends with. -/
def bodyPre (K : Dev nD × Fin 3 → ℕ) (c : Dev nD) : sProp 𝕄 :=
  iprop((ghost m ρ K c ∗ cred (tallyAt (barCell c) () 1) ∗ cred (tallyAt (recvCell c) () N) ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelProof

end
-- ==== Proof.KernelBody.lean ====
/-
  One device's run of the kernel body, from the protocol's ghost state to the result block holding the device's own
  column sums plus its peer's.

  In program order: the signal to the peer's barrier cell (handing over this device's landing row, row 1 of its scratch
  buffer); the block's column sums stored into row 0; the wait on the device's own barrier cell (the peer's landing row
  comes with it); the copy of row 0 into the peer's row 1, reading row 0 through half a share; the wait on the receive
  cell (row 1 back, holding the peer's sums); the two rows loaded — row 0 through the half share kept — and their sum
  stored to the result block; the wait on the send cell (the other half of row 0 back); the two own cells closed and
  the scratch buffer put together again.
-/
import proofs.«901098_g7700000000001099_dist_sum_ax0_xy_m512_n256_v7x_xy2x2_f32_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables as the symbolic run reads them -/

attribute [local sl_rounds] duties_bar duties_send duties_recv amount_bar amount_send amount_recv payload_bar payload_send payload_recv
  expect_bar expect_send expect_recv

omit [FloatOps F] in
/-- The two rows of the scratch buffer share no element. -/
theorem rows_disjoint : Disjoint (slot0M : Memref sig .tc .vmem S1x256 .f32).view.set (slot1M : Memref sig .tc .vmem S1x256 .f32).view.set := by
  rw [set0_eq, set1_eq, View.set_slice_whole, View.set_slice_whole]
  exact Rect.unit_disjoint 0 (Or.inl (by decide))

omit [FloatOps F] in
theorem row0_sub_rest : (slot0M : Memref sig .tc .vmem S1x256 .f32).view.set ⊆ Finset.univ \ (slot1M : Memref sig .tc .vmem S1x256 .f32).view.set :=
  Finset.subset_sdiff.mpr ⟨Finset.subset_univ _, rows_disjoint⟩

/-- What the peer's barrier duty asks of device `c`, with the peer of the peer resolved: `c`'s own landing row and
    that `c` is at round 0 of its receive cell. -/
theorem payload_bar_peer (c : Dev nD) (d : Unit) :
    (sched (F := F) m ρ).payload (barCell (peer c)) 0 d = iprop((∃ f, pts1 c f) ∗ reached ER (recvCell c) 0) := by
  rw [payload_bar]; unfold barPay; rw [peer_peer]

omit [FloatOps F] in
/-- The staging buffers, the scratch buffer and its row 0, each as the points-to of its memref's view. -/
theorem xPts_eq (c : Dev nD) (f : (cc0_stg0_0 : Ref sig .tc).ty.Contents (Elt F)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f) := by rw [View.set_whole]
omit [FloatOps F] in
theorem oPts_eq (c : Dev nD) (f : (cc0_stg1_0 : Ref sig .tc).ty.Contents (Elt F)) :
    ((oM : Memref sig .tc .vmem S1x256 .f32).view.loc (c : Thread nD τ) ↦[(oM : Memref sig .tc .vmem S1x256 .f32).view.set]{fullShare} f : sProp 𝕄)
      = (((c : Thread nD τ).loc cc0_stg1_0) ↦{fullShare} f) := by rw [View.set_whole]
omit [FloatOps F] in
theorem row0_eq (c : Dev nD) (q : PosShare TreeShare) (f : (cc0_scratch0 : Ref sig .tc).ty.Contents (Elt F)) :
    ((cM.slice r0 (fun _ => rfl) : Memref sig .tc .vmem S1x1x256 .f32).view.loc (c : Thread nD τ) ↦[(cM.slice r0 (fun _ => rfl) : Memref sig .tc .vmem S1x1x256 .f32).view.set]{q} f : sProp 𝕄)
      = (((c : Thread nD τ).loc cc0_scratch0) ↦[(slot0M : Memref sig .tc .vmem S1x256 .f32).view.set]{q} f) := by rw [set0_eq]
omit [FloatOps F] in
theorem row1_eq (c : Dev nD) (q : PosShare TreeShare) (f : (cc0_scratch0 : Ref sig .tc).ty.Contents (Elt F)) :
    ((cM.slice r1 (fun _ => rfl) : Memref sig .tc .vmem S1x1x256 .f32).view.loc (c : Thread nD τ) ↦[(cM.slice r1 (fun _ => rfl) : Memref sig .tc .vmem S1x1x256 .f32).view.set]{q} f : sProp 𝕄)
      = (((c : Thread nD τ).loc cc0_scratch0) ↦[(slot1M : Memref sig .tc .vmem S1x256 .f32).view.set]{q} f) := by rw [set1_eq]

omit [FloatOps F] in
theorem zeros2 : (![0, 0] : Fin 2 → Nat) = fun _ => 0 := funext fun a => by fin_cases a <;> rfl

omit [FloatOps F] in
/-- A load of a staging buffer whole reads its contents. -/
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 zeros2 _ f
omit [FloatOps F] in
/-- A store to the result's staging buffer whole leaves what is stored. -/
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 zeros2 _ f w

/-- Row 0 after the column sums are stored, whatever the buffer held before, is row 0 of `buf0`. -/
theorem row0_stored (c : Dev nD) (q : PosShare TreeShare) (f0 : (cc0_scratch0 : Ref sig .tc).ty.Contents (Elt F)) :
    ((cM.slice r0 (fun _ => rfl) : Memref sig .tc .vmem S1x1x256 .f32).view.loc (c : Thread nD τ) ↦[(cM.slice r0 (fun _ => rfl) : Memref sig .tc .vmem S1x1x256 .f32).view.set]{q}
        v0.write (Elt F) f0 (colSums (xstg m ρ c)) Finset.univ : sProp 𝕄)
      = pts0 c q (buf0 m ρ c) := by
  rw [row0_eq]; unfold pts0 buf0
  exact pointsTo_congr (fun i hi => write_agree v0 f0 zbuf _ i (set0_eq ▸ hi))

omit [FloatOps F] in
/-- The whole share of row 0 is its two halves. -/
theorem row0_halves (c : Dev nD) (f : (cc0_scratch0 : Ref sig .tc).ty.Contents (Elt F)) :
    (pts0 c fullShare f : sProp 𝕄) ⊣⊢ iprop(pts0 c fullShare.left f ∗ pts0 c fullShare.right f) :=
  pointsTo_share (PosShare.mem_left_op_right fullShare)

/-- What lands on the peer: its row 1 rewritten with this device's row 0 is row 1 of the peer's `buf1`. -/
theorem landed_pay (c : Dev nD) (fn : (cc0_scratch0 : Ref sig .tc).ty.Contents (Elt F)) :
    ((slot1M : Memref sig .tc .vmem S1x256 .f32).view.loc (peer c : Thread nD τ) ↦[(slot1M : Memref sig .tc .vmem S1x256 .f32).view.set]{fullShare}
        (slot1M : Memref sig .tc .vmem S1x256 .f32).view.write (Elt F) fn ((slot0M : Memref sig .tc .vmem S1x256 .f32).view.read (Elt F) (buf0 m ρ c)) Finset.univ : sProp 𝕄)
      = pts1 (peer c) (buf1 m ρ (peer c)) := by
  rw [land_eq, read_buf0]; unfold pts1 buf1; rw [peer_peer]
  exact pointsTo_congr (fun i hi => write_agree v1 fn zbuf _ i (set1_eq ▸ hi))

/-- The send rule at this protocol's cells: the copy of row 0, read through the left half share, into the row 1 of the
    device `n = peer c` (substituted, not rewritten). -/
theorem wp_send_row (K : Dev nD × Fin 3 → ℕ) (c n : Dev nD) (hn : n = peer c)
    {hsc : (slot1M : Memref sig (Dev.tc n : Thread nD τ).2.kind .vmem S1x256 .f32).view.ref.isScScratch = false}
    {hsrc : (slot0M : Memref sig .tc .vmem S1x256 .f32).view.WordExact} {hdst : (slot1M : Memref sig .tc .vmem S1x256 .f32).view.WordExact}
    {hsem : DmaTarget.Typed .vmem (.dma recvS.sem) (.remote (Dev.tc n : Thread nD τ) (slot1M : Memref sig .tc .vmem S1x256 .f32) (.dma sendS.sem) hsc)}
    {α : Type} {Q : α → sProp 𝕄} {k : PUnit → Prog (TpuEff nD τ sig (Elt F) Λ₀ .tc) α}
    (fn : Buf (Elt F) ((slot1M : Memref sig .tc .vmem S1x256 .f32).view.loc (peer c : Thread nD τ))) (W : Waits sig Unit) :
    iprop(cellInv ER (sched m ρ) (K (c, 1)) (sendCell c) ∗ cellInv ER (sched m ρ) (K (peer c, 2)) (recvCell (peer c))
        ∗ pts0 c fullShare.left (buf0 m ρ c) ∗ pts1 (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0M (.remote (Dev.tc n : Thread nD τ) slot1M (.dma sendS.sem) hsc) (.dma recvS.sem) hsrc hdst hsem) k) Q) := by
  subst hn
  unfold pts0 pts1
  exact Rounds.wp_send_pointsTo 𝒱₀ ER (sched m ρ) (c : Thread nD τ) none (κ₁ := K (c, 1)) (κ₂ := K (peer c, 2))
    (r₁ := 0) (r₂ := 0) (d₁ := ()) (d₂ := ()) (q := fullShare.left) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay pts0; exact BI.Entails.refl _)
    (by rw [payload_recv]; unfold recvPay; exact Entails.of_eq (landed_pay m ρ c fn))

/-- The body, from `bodyPre` to `bodyPost`. -/
theorem sound_body (K : Dev nD × Fin 3 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs scrAny
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer cut into its landing row, its source row and the (empty) rest
  ihave Hs := (pointsTo_split_subset (I := (slot1M : Memref sig .tc .vmem S1x256 .f32).view.set) (Finset.subset_univ _)).1 $$ Hscr
  icases Hs with ⟨H1, Hrest⟩
  ihave Hs := (pointsTo_split_subset row0_sub_rest).1 $$ Hrest
  icases Hs with ⟨H0, Hrest⟩
  -- the signal to the peer's barrier cell, handing over the landing row
  unfold O₀
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP H1]
  · isplitr; · iexact HIbarP
    isplitl [HO]; · iexact HO
    isplitl [HtBP]; · iexact HtBP
    isplitl [H1]
    · rw [payload_bar_peer]
      isplitl [H1]; · iexists f0; unfold pts1; iexact H1
      iexact HrV
    · iexact HrBP
  iintro HO
  ihave Hx' := (Entails.of_eq (xPts_eq c (xstg m ρ c)).symm) $$ Hx
  ihave Hout' := (Entails.of_eq (oPts_eq c g1).symm) $$ Hout
  ihave H0' := (Entails.of_eq (row0_eq c fullShare f0).symm) $$ H0
  sl_exec
  have hmw := mayWait_bar (F := F) c
  sl_exec
  sl_unfold_words
  unfold barPay
  icases HatB_pay1 with ⟨⟨%fn, HscrN⟩, #HrVP'⟩
  -- row 0 now holds the column sums: named, and cut into its two half shares
  rw [read_x]
  ihave H0 := (Entails.of_eq (row0_stored m ρ c fullShare f0)) $$ H0'
  ihave Hh := (row0_halves c (buf0 m ρ c)).1 $$ H0
  icases Hh with ⟨H0L, H0R⟩
  -- the copy into the peer's row 1, reading row 0 through the left half
  iapply (wp_send_row m ρ K c _ (dev2_eq c) fn _) $$ [H0L HscrN HO HtS HtVP]
  · isplitr; · iexact HIsnd
    isplitr; · iexact HIrcvP
    isplitl [H0L]; · iexact H0L
    isplitl [HscrN]; · iexact HscrN
    isplitl [HO]; · iexact HO
    isplitl [HtS]; · iexact HtS
    isplitr; · iexact HrS
    isplitl [HtVP]; · iexact HtVP
    iexact HrVP
  iintro ⟨HcS, HO⟩
  -- the wait on the receive cell: row 1 back, holding the peer's column sums
  sl_exec
  unfold recvPay pts0 pts1
  ihave H1' := (Entails.of_eq (row1_eq c fullShare (buf1 m ρ c)).symm) $$ HatV_pay1
  ihave H0R' := (Entails.of_eq (row0_eq c fullShare.right (buf0 m ρ c)).symm) $$ H0R
  -- the two rows loaded (row 0 through the half share kept), their sum stored; then the wait on the send cell
  sl_exec
  -- what the result block now holds
  rw [View.writes_singleton, write_out]
  -- the left half of row 0 back from the send cell; the halves, then the rows, put together again
  unfold sendPay
  ihave H0R := (Entails.of_eq (row0_eq c fullShare.right (buf0 m ρ c))) $$ H0R'
  ihave H0 := (row0_halves c (buf0 m ρ c)).2 $$ [HatS_pay1 H0R]
  · unfold pts0
    isplitl [HatS_pay1]; · iexact HatS_pay1
    iexact H0R
  unfold pts0
  ihave H1 := (Entails.of_eq (row1_eq c fullShare (buf1 m ρ c))) $$ H1'
  ihave Hj := (pointsTo_join_subset (ℓ := (c : Thread nD τ).loc cc0_scratch0) (q := fullShare) (g := buf0 m ρ c) (f := f0) row0_sub_rest) $$ [H0 Hrest]
  · isplitl [H0]; · iexact H0
    iexact Hrest
  ihave Hw := (pointsTo_join_subset (ℓ := (c : Thread nD τ).loc cc0_scratch0) (q := fullShare) (I := (slot1M : Memref sig .tc .vmem S1x256 .f32).view.set) (g := buf1 m ρ c) (Finset.subset_univ _)) $$ [H1 Hj]
  · isplitl [H1]; · iexact H1
    iexact Hj
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  ihave Hx := (Entails.of_eq (xPts_eq c (xstg m ρ c))) $$ Hx'
  ihave Hout := (Entails.of_eq (oPts_eq c _)) $$ Hout'
  rw [wp_ret]; imodintro
  iapply Hk
  unfold bodyPost Φ₁ scrAny Dat.owesAt Pipeline.owesWithin
  rw [show (dats m ρ 0 c).owed t₀.succ = 0 from rfl]
  isplitl [Hw HzS HzV]
  · isplitl [Hw]; · iexists _; iexact Hw
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

/-- What the launch hands the body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.KernelLaunch.lean ====
/-
  The launch: from "each device's body is proved" to the run of the whole program on the mesh of four devices, with
  every final array named.

  The protocol's ghost state is made once for the whole mesh and dealt to the devices. Each device's own three cells
  (barrier, send, receive) come at counter zero, round 0 reached, the owner's position at the start of round 0, and one
  duty token each. The tokens then travel to the devices that pay those duties: a barrier cell's and a receive cell's to
  the peer (the device in the other row of the column, an involution, so the same map deals them there and back), a send
  cell's stays. What the devices owe at launch, summed per cell, is what each cell's owner may wait for: one unit on its
  barrier cell and one row's credit on its receive cell, both from its peer.

  After the run the argument array is what it was (it is never written back) and the result array is the one block the
  body left in its staging buffer: the device's own column sums plus its peer's.
-/
import proofs.«901098_g7700000000001099_dist_sum_ax0_xy_m512_n256_v7x_xy2x2_f32_1_alg».proof.Proof.KernelBody
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- The peer map as an equivalence of the devices: its own inverse. -/
def peerEquiv : Dev nD ≃ Dev nD := ⟨peer, peer, peer_peer, peer_peer⟩

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The protocol's cells: three a device. -/
def protoCells : Finset (GSem nD τ sig) := Finset.univ.map ⟨kcell, kcell_injective⟩

/-- A device's own cells' duty tokens as minted: (device, which cell) — the one duty of round 0 of that cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c` (the theorem's `G`). -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may look at: all the cells' invariants, at the names `K`, and that round 0 of each is reached. -/
def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its peer's barrier duty (its
    signal), its peer's receive duty (its copy landing), its own send duty (its copy's source read). -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each column: a barrier cell's and a receive cell's go to the peer, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨HB, HS, HV⟩
  isplitl [HB]; · iexact HB
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- The devices' dues at launch, read per cell: device `c`'s barrier cell is owed one unit and its receive cell the row's
    credit, both by its peer. -/
theorem creds (c : Dev nD) :
    (Pipeline.launchCred O₀ c : sProp 𝕄) ⊢ iprop(cred (tallyAt (barCell c) () 1) ∗ cred (tallyAt (recvCell c) () N)) := by
  have h : (Pipeline.launchCred O₀ c : sProp 𝕄)
      = iprop(Pipeline.launchCred (fun d => tallyAt (recvCell (peer d)) () N) c ∗ Pipeline.launchCred (fun d => tallyAt (barCell (peer d)) () 1) c) :=
    Pipeline.launchCred_add (fun d => tallyAt (recvCell (peer d)) () N) (fun d => tallyAt (barCell (peer d)) () 1) c
  rw [h]
  iintro ⟨HR, HB⟩
  isplitl [HB]
  · iapply (Pipeline.launchCred_tallyAt (.reg barS) peer peer peer_peer peer_peer () 1 c); iexact HB
  · iapply (Pipeline.launchCred_tallyAt (.dma recvS.sem) peer peer peer_peer peer_peer () N c); iexact HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each windowed array after the write-backs of the one grid point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Given each device's body: from any memory with every counter at zero, every weakly fair execution of the program on
    the four devices terminates, and every final state has each device's windowed arrays as the write-backs leave them. -/
theorem run_arrays (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- The argument array's one block is the whole array: what the staging buffer is fetched is the device's block as
    the memory at launch holds it. -/
theorem xstg_eq (c : Dev nD) : xstg m ρ c = m ((c : Thread nD τ).loc main_arg0) := by
  unfold xstg
  exact Memref.read_access_unit_zero (Elt F) main_arg0 (funext fun a => Nat.zero_mul _) _ _

/-- The argument array is never written back: after the run it holds what it held. -/
theorem finalA_in (c : Dev nD) : finalA m ρ c (0 : Fin 2) = m ((c : Thread nD τ).loc main_arg0) :=
  (dats (F := F) m ρ 0 c).arrAt_in (0 : Fin 2) rfl _

/-- The result array is written back once, at the one point, whole: it ends holding what the body left in its
    staging buffer. -/
theorem finalA_out (c : Dev nD) : finalA m ρ c (1 : Fin 2) = outAt m ρ c := by
  unfold finalA
  rw [show cfg0.N = (t₀ : Fin cfg0.N).val + 1 from cfg0_N, Dat.arrAt_succ, if_pos (flush0_1 t₀)]
  exact Memref.write_access_unit_zero_univ (Elt F) main_v1 (funext fun a => Nat.zero_mul _) _ _ _

/-- The launch, given each device's body: at the compiled mesh of four devices, for any float values, from any memory
    with every counter at zero, every weakly fair execution of the program terminates, and in every final state each
    device's result block holds its own block's column sums plus its peer's, and its argument block is unchanged. -/
theorem run_of_body (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1)
          = outVal (m ((c.tc : Thread nD τ).loc main_arg0)) (m (((peer c).tc : Thread nD τ).loc main_arg0))
      ∧ r.2.mem ((c.tc : Thread nD τ).loc main_arg0) = m ((c.tc : Thread nD τ).loc main_arg0)) :=
  (θ_run defs _ _).mono (fun r h c =>
    ⟨(h c (1 : Fin 2)).trans ((finalA_out m ρ c).trans (by unfold outAt; rw [xstg_eq, xstg_eq])),
      (h c (0 : Fin 2)).trans (finalA_in m ρ c)⟩) (run_arrays m ρ hbody)

/-- info: 'Cert.KernelProof.run_of_body' depends on axioms: [propext, Classical.choice, Quot.sound] -/
#guard_msgs in #print axioms run_of_body

/-- The run of the program on the mesh, with the body each device was proved to run. -/
theorem run_main : θ_run (defs (F := F)) (onTc (τ := τ) (main (F := F))) ⟨m, fun _ => 0, ρ⟩ (fun r => ∀ c : Dev nD,
      r.2.mem ((c.tc : Thread nD τ).loc main_v1)
          = outVal (m ((c.tc : Thread nD τ).loc main_arg0)) (m (((peer c).tc : Thread nD τ).loc main_arg0))
      ∧ r.2.mem ((c.tc : Thread nD τ).loc main_arg0) = m ((c.tc : Thread nD τ).loc main_arg0)) :=
  run_of_body m ρ (body_obligation m ρ)

/-- info: 'Cert.KernelProof.run_main' depends on axioms: [propext, Classical.choice, Quot.sound] -/
#guard_msgs in #print axioms run_main

end Cert.KernelProof

end
-- ==== Proof.KernelIdealPeer.lean ====
/-
  The mesh is 2 × 2, devices numbered row-major: device `c` sits at (c / 2, c % 2). The kernel talks to the
  device in the other row of its own column, `peer c` = (1 - c / 2, c % 2): 0 ↔ 2 and 1 ↔ 3, an involution
  without fixed points. What a device ends with is the sum of its own block's column sums and its peer's.
-/
import proofs.«901098_g7700000000001099_dist_sum_ax0_xy_m512_n256_v7x_xy2x2_f32_1_alg».proof.Proof.Gen.KernelIdeal.Skeleton

noncomputable section

namespace Cert.KernelIdealProof

open Cert.KernelIdeal Cert.KernelIdeal.Gen
open Idealize.ShloMosaic Idealize.SL.Sem

variable {F : FTy → Type} [FloatOps F]

/-- The device in the other row of the same column. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both device chains of the kernel (the barrier signal's and the copy's) name the peer. -/
theorem peer_val (c : Dev nD) : ((c.val % 2) + 2) - 2 * (c.val / 2) = (peer c).val := by revert c; decide
theorem dev1_eq (c : Dev nD) : (⟨k0_dev1 c, k0_dev1_lt c⟩ : Dev nD) = peer c := Fin.ext ((k0_dev1_eq c).trans (peer_val c))
theorem dev2_eq (c : Dev nD) : (⟨k0_dev2 c, k0_dev2_lt c⟩ : Dev nD) = peer c := Fin.ext ((k0_dev2_eq c).trans (peer_val c))

/-- The row a device sends: the column sums of its block, as the scratch slot holds them. -/
abbrev colSums (x : Vec F S512x256 .f32) : FVec F S1x1x256 .f32 := k0_pay2 x

/-- What a device's result block ends holding, from its own block and its peer's: own column sums plus the peer's. -/
def outVal (x xp : Vec F S512x256 .f32) : FVec F S1x256 .f32 := k0_pay1 (colSums x) (colSums xp)

end Cert.KernelIdealProof

end
-- ==== Proof.KernelIdealProto.lean ====
/-
  The cross-device protocol of the column-sum kernel, per device `c` with `p = peer c` (the device in the other row
  of its column).

  Three semaphores a device: the barrier semaphore of the collective (not scoped to the launch), the copy's send
  semaphore and its receive semaphore. One round each:
    barrier cell of `c`  — one duty of 1 unit, paid by `p`'s signal; it hands `c` the landing slot (slot 1) of `p`'s
                           scratch buffer, and that `p` is at round 0 of its receive cell: what `c`'s copy into `p` needs;
    receive cell of `c`  — one duty of the row's credit, paid by `p`'s copy landing; it hands `c` its slot 1 holding
                           `p`'s column sums;
    send cell of `c`     — one duty of the row's credit, paid by `c`'s own copy once slot 0 is read; it hands back the
                           half share of slot 0 the copy read through.
  The scratch buffer is two rows: slot 0 holds the device's own column sums (the copy's source), slot 1 is where the
  peer's land. The device adds the two while its own copy may still be reading slot 0: it keeps the other half share
  of slot 0 for that load, and nothing stores to slot 0 after the copy starts.
-/
import proofs.«901098_g7700000000001099_dist_sum_ax0_xy_m512_n256_v7x_xy2x2_f32_1_alg».proof.Proof.KernelIdealPeer
import proofs.«901098_g7700000000001099_dist_sum_ax0_xy_m512_n256_v7x_xy2x2_f32_1_alg».proof.Proof.Gen.KernelIdeal.Launch
import proofs.«901098_g7700000000001099_dist_sum_ax0_xy_m512_n256_v7x_xy2x2_f32_1_alg».proof.Proof.Gen.KernelIdeal.Points
import Idealize.ShloMosaic.Lib.Pipeline.Launch
import Idealize.ShloMosaic.Lib.Pipeline.Kit
import Idealize.ShloMosaic.Lib.Writes
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round: duty names `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st₀ : MemSt nD τ sig (Elt F) := ⟨m, fun _ => 0, ρ⟩

/-! ## The memrefs, the two slots, the cells -/

abbrev xM : Memref sig .tc .vmem S512x256 .f32 := Memref.whole cc0_stg0_0
abbrev oM : Memref sig .tc .vmem S1x256 .f32 := Memref.whole cc0_stg1_0
abbrev cM : Memref sig .tc .vmem S2x1x256 .f32 := Memref.whole cc0_scratch0

/-- Row 0 and row 1 of the scratch buffer, as rectangles. -/
abbrev r0 : Rect S2x1x256 := Rect.unit (s := S2x1x256) ![0, 0, 0] S1x1x256.size inb_S2x1x256_S1x1x256_0_0_0
abbrev r1 : Rect S2x1x256 := Rect.unit (s := S2x1x256) ![1, 0, 0] S1x1x256.size inb_S2x1x256_S1x1x256_1_0_0
/-- The slots as the loads and the store go through them, -/
abbrev v0 : View sig .tc .vmem S1x1x256 .f32 := cM.access r0
abbrev v1 : View sig .tc .vmem S1x1x256 .f32 := cM.access r1
/-- and as the copy names them: the row sliced out and its leading unit axis dropped. -/
abbrev slot0M : Memref sig .tc .vmem S1x256 .f32 := (cM.slice r0 (fun _ => rfl)).squeeze S1x256 squeezes_S1x1x256_S1x256
abbrev slot1M : Memref sig .tc .vmem S1x256 .f32 := (cM.slice r1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch theorem indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (slot1M : Memref sig .tc .vmem S1x256 .f32).view.dmaCredit
theorem N_pos : 0 < N := View.dmaCredit_pos _ (by decide)

/-! ## Contents -/

/-- Device `c`'s block of the argument array, as its staging buffer holds it. -/
def xstg (c : Dev nD) : (cc0_stg0_0 : Ref sig .tc).ty.Contents (Elt F) :=
  (win0_0.blk (0 : Fin 1)).view.read (Elt F) ((st₀ m ρ).mem ((c : Thread nD τ).loc main_arg0))

/-- A scratch buffer of no particular contents, to write the rows into. -/
def zbuf : (cc0_scratch0 : Ref sig .tc).ty.Contents (Elt F) := fun _ => FloatOps.ofBits .f32 0x00000000#32

/-- The scratch buffer with row 0 the device's own column sums, -/
def buf0 (c : Dev nD) : (cc0_scratch0 : Ref sig .tc).ty.Contents (Elt F) := v0.write (Elt F) zbuf (colSums (xstg m ρ c)) Finset.univ
/-- and with row 1 the peer's. -/
def buf1 (c : Dev nD) : (cc0_scratch0 : Ref sig .tc).ty.Contents (Elt F) := v1.write (Elt F) zbuf (colSums (xstg m ρ (peer c))) Finset.univ

/-- What the device's result block ends holding. -/
def outAt (c : Dev nD) : (cc0_stg1_0 : Ref sig .tc).ty.Contents (Elt F) := outVal (xstg m ρ c) (xstg m ρ (peer c))

omit [FloatOps F] in
/-- Two writes of one row into different buffers agree on the row. -/
theorem write_agree {s : Shape} (v : View sig .tc .vmem s .f32) (f g : v.ty.Contents (Elt F)) (w : s.Idx → Elt F .f32) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ _), View.write_emb_of_mem _ _ (Finset.mem_univ _)]

omit [FloatOps F] in
/-- The copy writes through the squeezed slices what a store through the row's rectangle would: row 1 becomes row 0
    of the source buffer. -/
theorem land_eq (fd fs : (cc0_scratch0 : Ref sig .tc).ty.Contents (Elt F)) :
    (slot1M : Memref sig .tc .vmem S1x256 .f32).view.write (Elt F) fd ((slot0M : Memref sig .tc .vmem S1x256 .f32).view.read (Elt F) fs) Finset.univ
      = v1.write (Elt F) fd (v0.read (Elt F) fs) Finset.univ := by
  simp only [Memref.view_squeeze, Memref.view_slice]
  rw [View.write_reshape_univ]
  refine congrArg (fun w => v1.write (Elt F) fd w Finset.univ) (funext fun x => ?_)
  rw [View.read_apply, View.read_apply]
  simp

theorem read_buf0 (c : Dev nD) : v0.read (Elt F) (buf0 m ρ c) = colSums (xstg m ρ c) := View.read_write_univ _ _
theorem read_buf1 (c : Dev nD) : v1.read (Elt F) (buf1 m ρ c) = colSums (xstg m ρ (peer c)) := View.read_write_univ _ _

/-! ## The pieces of the scratch buffer a device holds -/

/-- Row 0 of device `c`'s scratch buffer at share `q`, -/
def pts0 (c : Dev nD) (q : PosShare TreeShare) (f : Buf (Elt F) ((slot0M : Memref sig .tc .vmem S1x256 .f32).view.loc (c : Thread nD τ))) : sProp 𝕄 :=
  (slot0M : Memref sig .tc .vmem S1x256 .f32).view.loc (c : Thread nD τ) ↦[(slot0M : Memref sig .tc .vmem S1x256 .f32).view.set]{q} f
/-- row 1, whole. -/
def pts1 (c : Dev nD) (f : Buf (Elt F) ((slot1M : Memref sig .tc .vmem S1x256 .f32).view.loc (c : Thread nD τ))) : sProp 𝕄 :=
  (slot1M : Memref sig .tc .vmem S1x256 .f32).view.loc (c : Thread nD τ) ↦[(slot1M : Memref sig .tc .vmem S1x256 .f32).view.set]{fullShare} f

omit [FloatOps F] in
instance pts0_storable (c : Dev nD) (q) (f) : BI.Storable (upEmb : UEmb _ 𝕄) (pts0 (F := F) c q f) := by unfold pts0; infer_instance
omit [FloatOps F] in
instance pts1_storable (c : Dev nD) (f) : BI.Storable (upEmb : UEmb _ 𝕄) (pts1 (F := F) c f) := by unfold pts1; infer_instance

omit [FloatOps F] in
theorem set0_eq : (slot0M : Memref sig .tc .vmem S1x256 .f32).view.set = v0.set := View.set_reshape _ _
omit [FloatOps F] in
theorem set1_eq : (slot1M : Memref sig .tc .vmem S1x256 .f32).view.set = v1.set := View.set_reshape _ _

/-! ## The schedule -/

/-- What `peer c`'s signal hands `c`: `peer c`'s landing row, and that `peer c` has reached round 0 of its receive cell. -/
def barPay (c : Dev nD) : sProp 𝕄 := iprop((∃ f, pts1 (peer c) f) ∗ reached ER (recvCell (peer c)) 0)
/-- What the landing hands `c`: its row 1 holding the peer's column sums. -/
def recvPay (c : Dev nD) : sProp 𝕄 := pts1 c (buf1 m ρ c)
/-- What the source's last read hands back: the half share of row 0 the copy read through. -/
def sendPay (c : Dev nD) : sProp 𝕄 := pts0 c fullShare.left (buf0 m ρ c)

abbrev IsCell (g : GSem nD τ sig) : Prop := g.1.2 = .tc ∧ (g.2 = .reg barS ∨ g.2 = .dma sendS.sem ∨ g.2 = .dma recvS.sem)

/-- One round, round 0, one duty a cell: a barrier cell's of one unit, a send or receive cell's of the row's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, rfl, .inl rfl⟩
theorem duties_send : (sched (F := F) m ρ).duties (sendCell c) 0 = {()} := by dsimp only [sched]; exact if_pos ⟨rfl, rfl, .inr (.inl rfl)⟩
theorem duties_recv : (sched (F := F) m ρ).duties (recvCell c) 0 = {()} := by dsimp only [sched]; exact if_pos ⟨rfl, rfl, .inr (.inr rfl)⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

/-- The rest of each cell's round, no duty taken: its one payload. -/
theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its peer's receive cell the row's credit (its copy) and its peer's barrier cell one unit (its signal,
    which comes first and peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0: a device waits on its barrier owing only
    a receive credit, and on the others owing nothing. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    peer's barrier cell (its signal) and its peer's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The protocol's ghost state device `c` starts from: the invariants; its positions at round 0 of its three cells; the
    reached-marks of the cells it pays and of its own send and receive cells; the three duty tokens it pays with — its
    peer's barrier duty, its peer's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

/-- The scratch buffer whole, at some contents. -/
def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the scratch buffer whole again, the two own cells at zero, closed (the barrier cell is the runtime's:
    nothing to hand back). -/
def Φ₁ (c : Dev nD) : sProp 𝕄 := iprop(scrAny (F := F) c ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, and what it ends with. -/
def bodyPre (K : Dev nD × Fin 3 → ℕ) (c : Dev nD) : sProp 𝕄 :=
  iprop((ghost m ρ K c ∗ cred (tallyAt (barCell c) () 1) ∗ cred (tallyAt (recvCell c) () N) ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealProof

end
-- ==== Proof.KernelIdealBody.lean ====
/-
  One device's run of the kernel body, from the protocol's ghost state to the result block holding the device's own
  column sums plus its peer's.

  In program order: the signal to the peer's barrier cell (handing over this device's landing row, row 1 of its scratch
  buffer); the block's column sums stored into row 0; the wait on the device's own barrier cell (the peer's landing row
  comes with it); the copy of row 0 into the peer's row 1, reading row 0 through half a share; the wait on the receive
  cell (row 1 back, holding the peer's sums); the two rows loaded — row 0 through the half share kept — and their sum
  stored to the result block; the wait on the send cell (the other half of row 0 back); the two own cells closed and
  the scratch buffer put together again.
-/
import proofs.«901098_g7700000000001099_dist_sum_ax0_xy_m512_n256_v7x_xy2x2_f32_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables as the symbolic run reads them -/

attribute [local sl_rounds] duties_bar duties_send duties_recv amount_bar amount_send amount_recv payload_bar payload_send payload_recv
  expect_bar expect_send expect_recv

omit [FloatOps F] in
/-- The two rows of the scratch buffer share no element. -/
theorem rows_disjoint : Disjoint (slot0M : Memref sig .tc .vmem S1x256 .f32).view.set (slot1M : Memref sig .tc .vmem S1x256 .f32).view.set := by
  rw [set0_eq, set1_eq, View.set_slice_whole, View.set_slice_whole]
  exact Rect.unit_disjoint 0 (Or.inl (by decide))

omit [FloatOps F] in
theorem row0_sub_rest : (slot0M : Memref sig .tc .vmem S1x256 .f32).view.set ⊆ Finset.univ \ (slot1M : Memref sig .tc .vmem S1x256 .f32).view.set :=
  Finset.subset_sdiff.mpr ⟨Finset.subset_univ _, rows_disjoint⟩

/-- What the peer's barrier duty asks of device `c`, with the peer of the peer resolved: `c`'s own landing row and
    that `c` is at round 0 of its receive cell. -/
theorem payload_bar_peer (c : Dev nD) (d : Unit) :
    (sched (F := F) m ρ).payload (barCell (peer c)) 0 d = iprop((∃ f, pts1 c f) ∗ reached ER (recvCell c) 0) := by
  rw [payload_bar]; unfold barPay; rw [peer_peer]

omit [FloatOps F] in
/-- The staging buffers, the scratch buffer and its row 0, each as the points-to of its memref's view. -/
theorem xPts_eq (c : Dev nD) (f : (cc0_stg0_0 : Ref sig .tc).ty.Contents (Elt F)) :
    ((xM : Memref sig .tc .vmem S512x256 .f32).view.loc (c : Thread nD τ) ↦[(xM : Memref sig .tc .vmem S512x256 .f32).view.set]{fullShare} f : sProp 𝕄)
      = (((c : Thread nD τ).loc cc0_stg0_0) ↦{fullShare} f) := by rw [View.set_whole]
omit [FloatOps F] in
theorem oPts_eq (c : Dev nD) (f : (cc0_stg1_0 : Ref sig .tc).ty.Contents (Elt F)) :
    ((oM : Memref sig .tc .vmem S1x256 .f32).view.loc (c : Thread nD τ) ↦[(oM : Memref sig .tc .vmem S1x256 .f32).view.set]{fullShare} f : sProp 𝕄)
      = (((c : Thread nD τ).loc cc0_stg1_0) ↦{fullShare} f) := by rw [View.set_whole]
omit [FloatOps F] in
theorem row0_eq (c : Dev nD) (q : PosShare TreeShare) (f : (cc0_scratch0 : Ref sig .tc).ty.Contents (Elt F)) :
    ((cM.slice r0 (fun _ => rfl) : Memref sig .tc .vmem S1x1x256 .f32).view.loc (c : Thread nD τ) ↦[(cM.slice r0 (fun _ => rfl) : Memref sig .tc .vmem S1x1x256 .f32).view.set]{q} f : sProp 𝕄)
      = (((c : Thread nD τ).loc cc0_scratch0) ↦[(slot0M : Memref sig .tc .vmem S1x256 .f32).view.set]{q} f) := by rw [set0_eq]
omit [FloatOps F] in
theorem row1_eq (c : Dev nD) (q : PosShare TreeShare) (f : (cc0_scratch0 : Ref sig .tc).ty.Contents (Elt F)) :
    ((cM.slice r1 (fun _ => rfl) : Memref sig .tc .vmem S1x1x256 .f32).view.loc (c : Thread nD τ) ↦[(cM.slice r1 (fun _ => rfl) : Memref sig .tc .vmem S1x1x256 .f32).view.set]{q} f : sProp 𝕄)
      = (((c : Thread nD τ).loc cc0_scratch0) ↦[(slot1M : Memref sig .tc .vmem S1x256 .f32).view.set]{q} f) := by rw [set1_eq]

omit [FloatOps F] in
theorem zeros2 : (![0, 0] : Fin 2 → Nat) = fun _ => 0 := funext fun a => by fin_cases a <;> rfl

omit [FloatOps F] in
/-- A load of a staging buffer whole reads its contents. -/
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 zeros2 _ f
omit [FloatOps F] in
/-- A store to the result's staging buffer whole leaves what is stored. -/
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 zeros2 _ f w

/-- Row 0 after the column sums are stored, whatever the buffer held before, is row 0 of `buf0`. -/
theorem row0_stored (c : Dev nD) (q : PosShare TreeShare) (f0 : (cc0_scratch0 : Ref sig .tc).ty.Contents (Elt F)) :
    ((cM.slice r0 (fun _ => rfl) : Memref sig .tc .vmem S1x1x256 .f32).view.loc (c : Thread nD τ) ↦[(cM.slice r0 (fun _ => rfl) : Memref sig .tc .vmem S1x1x256 .f32).view.set]{q}
        v0.write (Elt F) f0 (colSums (xstg m ρ c)) Finset.univ : sProp 𝕄)
      = pts0 c q (buf0 m ρ c) := by
  rw [row0_eq]; unfold pts0 buf0
  exact pointsTo_congr (fun i hi => write_agree v0 f0 zbuf _ i (set0_eq ▸ hi))

omit [FloatOps F] in
/-- The whole share of row 0 is its two halves. -/
theorem row0_halves (c : Dev nD) (f : (cc0_scratch0 : Ref sig .tc).ty.Contents (Elt F)) :
    (pts0 c fullShare f : sProp 𝕄) ⊣⊢ iprop(pts0 c fullShare.left f ∗ pts0 c fullShare.right f) :=
  pointsTo_share (PosShare.mem_left_op_right fullShare)

/-- What lands on the peer: its row 1 rewritten with this device's row 0 is row 1 of the peer's `buf1`. -/
theorem landed_pay (c : Dev nD) (fn : (cc0_scratch0 : Ref sig .tc).ty.Contents (Elt F)) :
    ((slot1M : Memref sig .tc .vmem S1x256 .f32).view.loc (peer c : Thread nD τ) ↦[(slot1M : Memref sig .tc .vmem S1x256 .f32).view.set]{fullShare}
        (slot1M : Memref sig .tc .vmem S1x256 .f32).view.write (Elt F) fn ((slot0M : Memref sig .tc .vmem S1x256 .f32).view.read (Elt F) (buf0 m ρ c)) Finset.univ : sProp 𝕄)
      = pts1 (peer c) (buf1 m ρ (peer c)) := by
  rw [land_eq, read_buf0]; unfold pts1 buf1; rw [peer_peer]
  exact pointsTo_congr (fun i hi => write_agree v1 fn zbuf _ i (set1_eq ▸ hi))

/-- The send rule at this protocol's cells: the copy of row 0, read through the left half share, into the row 1 of the
    device `n = peer c` (substituted, not rewritten). -/
theorem wp_send_row (K : Dev nD × Fin 3 → ℕ) (c n : Dev nD) (hn : n = peer c)
    {hsc : (slot1M : Memref sig (Dev.tc n : Thread nD τ).2.kind .vmem S1x256 .f32).view.ref.isScScratch = false}
    {hsrc : (slot0M : Memref sig .tc .vmem S1x256 .f32).view.WordExact} {hdst : (slot1M : Memref sig .tc .vmem S1x256 .f32).view.WordExact}
    {hsem : DmaTarget.Typed .vmem (.dma recvS.sem) (.remote (Dev.tc n : Thread nD τ) (slot1M : Memref sig .tc .vmem S1x256 .f32) (.dma sendS.sem) hsc)}
    {α : Type} {Q : α → sProp 𝕄} {k : PUnit → Prog (TpuEff nD τ sig (Elt F) Λ₀ .tc) α}
    (fn : Buf (Elt F) ((slot1M : Memref sig .tc .vmem S1x256 .f32).view.loc (peer c : Thread nD τ))) (W : Waits sig Unit) :
    iprop(cellInv ER (sched m ρ) (K (c, 1)) (sendCell c) ∗ cellInv ER (sched m ρ) (K (peer c, 2)) (recvCell (peer c))
        ∗ pts0 c fullShare.left (buf0 m ρ c) ∗ pts1 (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0M (.remote (Dev.tc n : Thread nD τ) slot1M (.dma sendS.sem) hsc) (.dma recvS.sem) hsrc hdst hsem) k) Q) := by
  subst hn
  unfold pts0 pts1
  exact Rounds.wp_send_pointsTo 𝒱₀ ER (sched m ρ) (c : Thread nD τ) none (κ₁ := K (c, 1)) (κ₂ := K (peer c, 2))
    (r₁ := 0) (r₂ := 0) (d₁ := ()) (d₂ := ()) (q := fullShare.left) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay pts0; exact BI.Entails.refl _)
    (by rw [payload_recv]; unfold recvPay; exact Entails.of_eq (landed_pay m ρ c fn))

/-- The body, from `bodyPre` to `bodyPost`. -/
theorem sound_body (K : Dev nD × Fin 3 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs scrAny
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the scratch buffer cut into its landing row, its source row and the (empty) rest
  ihave Hs := (pointsTo_split_subset (I := (slot1M : Memref sig .tc .vmem S1x256 .f32).view.set) (Finset.subset_univ _)).1 $$ Hscr
  icases Hs with ⟨H1, Hrest⟩
  ihave Hs := (pointsTo_split_subset row0_sub_rest).1 $$ Hrest
  icases Hs with ⟨H0, Hrest⟩
  -- the signal to the peer's barrier cell, handing over the landing row
  unfold O₀
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) () (tallyAt (recvCell (peer c)) () N) rfl)
    $$ [HO HtBP H1]
  · isplitr; · iexact HIbarP
    isplitl [HO]; · iexact HO
    isplitl [HtBP]; · iexact HtBP
    isplitl [H1]
    · rw [payload_bar_peer]
      isplitl [H1]; · iexists f0; unfold pts1; iexact H1
      iexact HrV
    · iexact HrBP
  iintro HO
  ihave Hx' := (Entails.of_eq (xPts_eq c (xstg m ρ c)).symm) $$ Hx
  ihave Hout' := (Entails.of_eq (oPts_eq c g1).symm) $$ Hout
  ihave H0' := (Entails.of_eq (row0_eq c fullShare f0).symm) $$ H0
  sl_exec
  have hmw := mayWait_bar (F := F) c
  sl_exec
  sl_unfold_words
  unfold barPay
  icases HatB_pay1 with ⟨⟨%fn, HscrN⟩, #HrVP'⟩
  -- row 0 now holds the column sums: named, and cut into its two half shares
  rw [read_x]
  ihave H0 := (Entails.of_eq (row0_stored m ρ c fullShare f0)) $$ H0'
  ihave Hh := (row0_halves c (buf0 m ρ c)).1 $$ H0
  icases Hh with ⟨H0L, H0R⟩
  -- the copy into the peer's row 1, reading row 0 through the left half
  iapply (wp_send_row m ρ K c _ (dev2_eq c) fn _) $$ [H0L HscrN HO HtS HtVP]
  · isplitr; · iexact HIsnd
    isplitr; · iexact HIrcvP
    isplitl [H0L]; · iexact H0L
    isplitl [HscrN]; · iexact HscrN
    isplitl [HO]; · iexact HO
    isplitl [HtS]; · iexact HtS
    isplitr; · iexact HrS
    isplitl [HtVP]; · iexact HtVP
    iexact HrVP
  iintro ⟨HcS, HO⟩
  -- the wait on the receive cell: row 1 back, holding the peer's column sums
  sl_exec
  unfold recvPay pts0 pts1
  ihave H1' := (Entails.of_eq (row1_eq c fullShare (buf1 m ρ c)).symm) $$ HatV_pay1
  ihave H0R' := (Entails.of_eq (row0_eq c fullShare.right (buf0 m ρ c)).symm) $$ H0R
  -- the two rows loaded (row 0 through the half share kept), their sum stored; then the wait on the send cell
  sl_exec
  -- what the result block now holds
  rw [View.writes_singleton, write_out]
  -- the left half of row 0 back from the send cell; the halves, then the rows, put together again
  unfold sendPay
  ihave H0R := (Entails.of_eq (row0_eq c fullShare.right (buf0 m ρ c))) $$ H0R'
  ihave H0 := (row0_halves c (buf0 m ρ c)).2 $$ [HatS_pay1 H0R]
  · unfold pts0
    isplitl [HatS_pay1]; · iexact HatS_pay1
    iexact H0R
  unfold pts0
  ihave H1 := (Entails.of_eq (row1_eq c fullShare (buf1 m ρ c))) $$ H1'
  ihave Hj := (pointsTo_join_subset (ℓ := (c : Thread nD τ).loc cc0_scratch0) (q := fullShare) (g := buf0 m ρ c) (f := f0) row0_sub_rest) $$ [H0 Hrest]
  · isplitl [H0]; · iexact H0
    iexact Hrest
  ihave Hw := (pointsTo_join_subset (ℓ := (c : Thread nD τ).loc cc0_scratch0) (q := fullShare) (I := (slot1M : Memref sig .tc .vmem S1x256 .f32).view.set) (g := buf1 m ρ c) (Finset.subset_univ _)) $$ [H1 Hj]
  · isplitl [H1]; · iexact H1
    iexact Hj
  -- the two own cells close: their counters at zero are the device's again
  imod (Rounds.cell_close ER (sched m ρ) (Set.mem_univ (K (c, 1))) (fun h => h) (R := 0 + 1) (duties_later m ρ (sendCell c))) $$ [HatS] with HzS
  · isplitr; · iexact HIsnd
    iexact HatS
  imod (Rounds.cell_close ER (sched m ρ) (Set.mem_univ (K (c, 2))) (fun h => h) (R := 0 + 1) (duties_later m ρ (recvCell c))) $$ [HatV] with HzV
  · isplitr; · iexact HIrcv
    iexact HatV
  ihave Hx := (Entails.of_eq (xPts_eq c (xstg m ρ c))) $$ Hx'
  ihave Hout := (Entails.of_eq (oPts_eq c _)) $$ Hout'
  rw [wp_ret]; imodintro
  iapply Hk
  unfold bodyPost Φ₁ scrAny Dat.owesAt Pipeline.owesWithin
  rw [show (dats m ρ 0 c).owed t₀.succ = 0 from rfl]
  isplitl [Hw HzS HzV]
  · isplitl [Hw]; · iexists _; iexact Hw
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

/-- What the launch hands the body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.KernelIdealLaunch.lean ====
/-
  The launch: from "each device's body is proved" to the run of the whole program on the mesh of four devices, with
  every final array named.

  The protocol's ghost state is made once for the whole mesh and dealt to the devices. Each device's own three cells
  (barrier, send, receive) come at counter zero, round 0 reached, the owner's position at the start of round 0, and one
  duty token each. The tokens then travel to the devices that pay those duties: a barrier cell's and a receive cell's to
  the peer (the device in the other row of the column, an involution, so the same map deals them there and back), a send
  cell's stays. What the devices owe at launch, summed per cell, is what each cell's owner may wait for: one unit on its
  barrier cell and one row's credit on its receive cell, both from its peer.

  After the run the argument array is what it was (it is never written back) and the result array is the one block the
  body left in its staging buffer: the device's own column sums plus its peer's.
-/
import proofs.«901098_g7700000000001099_dist_sum_ax0_xy_m512_n256_v7x_xy2x2_f32_1_alg».proof.Proof.KernelIdealBody
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- The peer map as an equivalence of the devices: its own inverse. -/
def peerEquiv : Dev nD ≃ Dev nD := ⟨peer, peer, peer_peer, peer_peer⟩

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The protocol's cells: three a device. -/
def protoCells : Finset (GSem nD τ sig) := Finset.univ.map ⟨kcell, kcell_injective⟩

/-- A device's own cells' duty tokens as minted: (device, which cell) — the one duty of round 0 of that cell. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c` (the theorem's `G`). -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may look at: all the cells' invariants, at the names `K`, and that round 0 of each is reached. -/
def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays — its peer's barrier duty (its
    signal), its peer's receive duty (its copy landing), its own send duty (its copy's source read). -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtB, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across each column: a barrier cell's and a receive cell's go to the peer, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨HB, HS, HV⟩
  isplitl [HB]; · iexact HB
  isplitl [HV]; · iexact HV
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- The devices' dues at launch, read per cell: device `c`'s barrier cell is owed one unit and its receive cell the row's
    credit, both by its peer. -/
theorem creds (c : Dev nD) :
    (Pipeline.launchCred O₀ c : sProp 𝕄) ⊢ iprop(cred (tallyAt (barCell c) () 1) ∗ cred (tallyAt (recvCell c) () N)) := by
  have h : (Pipeline.launchCred O₀ c : sProp 𝕄)
      = iprop(Pipeline.launchCred (fun d => tallyAt (recvCell (peer d)) () N) c ∗ Pipeline.launchCred (fun d => tallyAt (barCell (peer d)) () 1) c) :=
    Pipeline.launchCred_add (fun d => tallyAt (recvCell (peer d)) () N) (fun d => tallyAt (barCell (peer d)) () 1) c
  rw [h]
  iintro ⟨HR, HB⟩
  isplitl [HB]
  · iapply (Pipeline.launchCred_tallyAt (.reg barS) peer peer peer_peer peer_peer () 1 c); iexact HB
  · iapply (Pipeline.launchCred_tallyAt (.dma recvS.sem) peer peer peer_peer peer_peer () N c); iexact HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each windowed array after the write-backs of the one grid point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Given each device's body: from any memory with every counter at zero, every weakly fair execution of the program on
    the four devices terminates, and every final state has each device's windowed arrays as the write-backs leave them. -/
theorem run_arrays (hbody : ∀ c : Dev nD, BodyObligation (dats (F := F) m ρ 0 c) (defs₀ (F := F)) 𝒱₀ () Set.univ) :
    θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- The argument array's one block is the whole array: what the staging buffer is fetched is the device's block as
    the memory at launch holds it. -/
theorem xstg_eq (c : Dev nD) : xstg m ρ c = m ((c : Thread nD τ).loc main_arg0) := by
  unfold xstg
  exact Memref.read_access_unit_zero (Elt F) main_arg0 (funext fun a => Nat.zero_mul _) _ _

/-- The argument array is never written back: after the run it holds what it held. -/
theorem finalA_in (c : Dev nD) : finalA m ρ c (0 : Fin 2) = m ((c : Thread nD τ).loc main_arg0) :=
  (dats (F := F) m ρ 0 c).arrAt_in (0 : Fin 2) rfl _

/-- The result array is written back once, at the one point, whole: it ends holding what the body left in its
    staging buffer. -/
theorem finalA_out (c : Dev nD) : finalA m ρ c (1 : Fin 2) = outAt m ρ c := by
  unfold finalA
  rw [show cfg0.N = (t₀ : Fin cfg0.N).val + 1 from cfg0_N, Dat.arrAt_succ, if_pos (flush0_1 t₀)]
  exact Memref.write_access_unit_zero_univ (Elt F) main_v1 (funext fun a => Nat.zero_mul _) _ _ _

/-- The launch, given each device's body: at the compiled mesh of four devices, for any float values, from any memory
    with every counter at zero, every weakly fair execution of the program terminates, and in every final state each
    device's result block holds its own block's column sums plus its peer's, and its argument block is unchanged. -/
theorem run_of_body (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1)
          = outVal (m ((c.tc : Thread nD τ).loc main_arg0)) (m (((peer c).tc : Thread nD τ).loc main_arg0))
      ∧ r.2.mem ((c.tc : Thread nD τ).loc main_arg0) = m ((c.tc : Thread nD τ).loc main_arg0)) :=
  (θ_run defs _ _).mono (fun r h c =>
    ⟨(h c (1 : Fin 2)).trans ((finalA_out m ρ c).trans (by unfold outAt; rw [xstg_eq, xstg_eq])),
      (h c (0 : Fin 2)).trans (finalA_in m ρ c)⟩) (run_arrays m ρ hbody)

/-- info: 'Cert.KernelIdealProof.run_of_body' depends on axioms: [propext, Classical.choice, Quot.sound] -/
#guard_msgs in #print axioms run_of_body

/-- The run of the program on the mesh, with the body each device was proved to run. -/
theorem run_main : θ_run (defs (F := F)) (onTc (τ := τ) (main (F := F))) ⟨m, fun _ => 0, ρ⟩ (fun r => ∀ c : Dev nD,
      r.2.mem ((c.tc : Thread nD τ).loc main_v1)
          = outVal (m ((c.tc : Thread nD τ).loc main_arg0)) (m (((peer c).tc : Thread nD τ).loc main_arg0))
      ∧ r.2.mem ((c.tc : Thread nD τ).loc main_arg0) = m ((c.tc : Thread nD τ).loc main_arg0)) :=
  run_of_body m ρ (body_obligation m ρ)

/-- info: 'Cert.KernelIdealProof.run_main' depends on axioms: [propext, Classical.choice, Quot.sound] -/
#guard_msgs in #print axioms run_main

end Cert.KernelIdealProof

end
-- ==== Proof.ValueBridge.lean ====
/-
  The value of the two-by-two column sum. The whole array X has 1024 rows and 512 columns; device c of the
  2 × 2 mesh holds rows [512 (c / 2), 512 (c / 2) + 512) and columns [256 (c % 2), 256 (c % 2) + 256) of it.
  A device sums its block down the rows, adds the row of sums its peer (the device in the other row of the same
  column) computed, and so ends with, at lane q,

      (∑ r < 512, X (512 a + r, col)) + (∑ r < 512, X (512 a' + r, col)),   col = 256 (c % 2) + q,  {a, a'} = {0, 1}.

  The reference's entry at that column is 0 + ∑ k < 1024, X (k, col). Over the extended reals addition is
  commutative and associative, so the sum over 1024 rows splits into the rows below 512 and the rows from 512 on,
  taken in either order: the two agree on every input, with no finiteness hypothesis.
-/
import proofs.«901098_g7700000000001099_dist_sum_ax0_xy_m512_n256_v7x_xy2x2_f32_1_alg».proof.Defs
import proofs.«901098_g7700000000001099_dist_sum_ax0_xy_m512_n256_v7x_xy2x2_f32_1_alg».proof.Proof.KernelIdealPeer
import proofs.«901098_g7700000000001099_dist_sum_ax0_xy_m512_n256_v7x_xy2x2_f32_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.SL.Sem

namespace Cert.ValueBridge

open Cert.KernelIdealProof Cert.KernelIdeal Cert.KernelIdeal.Gen
open Idealize.ShloMosaic.ValueIdx

/-! ## Sums over the rows -/

/-- A sum over 1024 rows is the sum over the first 512 of them plus the sum over the last 512. -/
theorem sum_split (g : Fin 1024 → EReal) :
    ∑ k : Fin 1024, g k = (∑ r : Fin 512, g ⟨r.val, by omega⟩) + ∑ r : Fin 512, g ⟨512 + r.val, by omega⟩ :=
  Fin.sum_univ_add (a := 512) (b := 512) g

/-- The two halves in either order: for a + a' = 1 the rows of half a and the rows of half a' are all 1024 rows. -/
theorem sum_halves (g : Fin 1024 → EReal) (a a' : ℕ) (h : a + a' = 1) :
    (∑ r : Fin 512, g ⟨a * 512 + r.val, by omega⟩) + (∑ r : Fin 512, g ⟨a' * 512 + r.val, by omega⟩) = ∑ k, g k := by
  rw [sum_split]
  obtain ⟨rfl, rfl⟩ | ⟨rfl, rfl⟩ : (a = 0 ∧ a' = 1) ∨ (a = 1 ∧ a' = 0) := by omega
  · refine congrArg₂ (· + ·) (Finset.sum_congr rfl fun r _ => congrArg g (Fin.ext ?_))
      (Finset.sum_congr rfl fun r _ => congrArg g (Fin.ext ?_))
    · show 0 * 512 + r.val = r.val
      omega
    · show 1 * 512 + r.val = 512 + r.val
      omega
  · rw [add_comm]
    refine congrArg₂ (· + ·) (Finset.sum_congr rfl fun r _ => congrArg g (Fin.ext ?_))
      (Finset.sum_congr rfl fun r _ => congrArg g (Fin.ext ?_))
    · show 0 * 512 + r.val = r.val
      omega
    · show 1 * 512 + r.val = 512 + r.val
      omega

/-! ## The kernel's values at a lane -/

/-- The column sums of a 512 × 256 block, read at lane q: the sum down column q. The reshapes between [256],
    [1, 256] and [1, 1, 256] keep the lane; the reduction from the zero word over axis 0 is the sum over the rows. -/
theorem colSums_apply (x : Vec Ideal S512x256 .f32) (u v : Fin 1) (q : Fin 256) :
    colSums (F := Ideal) x (ix3 u v q) = ∑ r : Fin 512, x (ix2 r q) := by
  unfold colSums k0_pay2
  rw [shapeCast_ab_1ab_apply, shapeCast_a_1a_apply, shapeCast_self]
  refine (Ideal.multiReduction_add_single (φ := .f32) (s := S512x256) (t := S256) (a := 0) x _
    reduces_S512x256_S256 _ _ (ix1 q)).trans ?_
  refine Finset.sum_congr rfl fun r _ => congrArg x (funext fun a => Fin.ext ?_)
  match a with
  | ⟨0, _⟩ => rfl
  | ⟨1, _⟩ => rfl

/-- What a device ends with, read at lane q: its own block's column sum plus its peer's. -/
theorem outVal_apply (x xp : Vec Ideal S512x256 .f32) (p : Fin 1) (q : Fin 256) :
    outVal (F := Ideal) x xp (ix2 p q) = (∑ r : Fin 512, x (ix2 r q) : EReal) + ∑ r : Fin 512, xp (ix2 r q) := by
  unfold outVal k0_pay1
  rw [addf_apply, shapeCast_1ab_ab_apply, shapeCast_1ab_ab_apply, colSums_apply, colSums_apply]

/-! ## The mesh: a device and its peer -/

/-- On the 2 × 2 mesh a device and its peer sit in the two different rows … -/
theorem rowBlock_add_peer (c : Dev 4) :
    Layout.meshLin [2, 2] c.val [0] + Layout.meshLin [2, 2] (peer c).val [0] = 1 := by revert c; decide

/-- … and in the same column, -/
theorem colBlock_peer (c : Dev 4) : Layout.meshLin [2, 2] (peer c).val [1] = Layout.meshLin [2, 2] c.val [1] := by
  revert c; decide

/-- one of the two. -/
theorem colBlock_lt (c : Dev 4) : Layout.meshLin [2, 2] c.val [1] < 2 := by revert c; decide

/-! ## The bridge -/

/-- Device c's result is its columns of the column sums of the whole array: its own 512 rows and its peer's 512 rows
    are all 1024 rows of its 256 columns, and over the extended reals the order of the two halves does not matter. -/
theorem value_bridge (X : (⟨Cert.ReferenceIdeal.S1024x512, .f32⟩ : BufTy).Contents (Elt Ideal)) (c : Dev 4) :
    outVal (F := Ideal) (Layout.blockN ⟨2, ![512, 256]⟩ ⟨2, ![1024, 512]⟩ (Layout.meshBlock [2, 2] ![[0], [1]] c) X)
        (Layout.blockN ⟨2, ![512, 256]⟩ ⟨2, ![1024, 512]⟩ (Layout.meshBlock [2, 2] ![[0], [1]] (peer c)) X)
      = Layout.blockN ⟨2, ![1, 256]⟩ ⟨2, ![1, 512]⟩ (Layout.meshBlock [2, 2] ![[], [1]] c) (Cert.ReferenceIdeal.Read.val_main_v1 (F := Ideal) X) := by
  funext j
  obtain ⟨p, q, rfl⟩ : ∃ (p : Fin 1) (q : Fin 256), j = ix2 p q := ⟨j 0, j 1, eq_ix2 j⟩
  rw [outVal_apply]
  rw [Layout.blockN_apply, Cert.ReferenceIdeal.Read.val_main_v1_apply, Cert.ReferenceIdeal.Read.val_main_v0_apply,
    Cert.ReferenceIdeal.Read.val_main_cst_apply]
  have hB := colBlock_lt c
  have hA := rowBlock_add_peer c
  -- column 256 (c % 2) + q of the whole array, as a function of the row
  let g : Fin 1024 → EReal := fun k => X (ix2 k ⟨Layout.meshLin [2, 2] c.val [1] * 256 + q.val, by omega⟩)
  refine ((congrArg₂ (· + ·) (Finset.sum_congr rfl fun r _ => ?_) (Finset.sum_congr rfl fun r _ => ?_)).trans
    (sum_halves g _ _ hA)).trans ?_
  · -- the device's own block: rows 512 (c / 2) + r
    refine congrArg X (funext fun a => Fin.ext ?_)
    match a with
    | ⟨0, _⟩ => rfl
    | ⟨1, _⟩ => rfl
  · -- the peer's block: the other 512 rows, the same columns
    refine congrArg X (funext fun a => Fin.ext ?_)
    match a with
    | ⟨0, _⟩ => rfl
    | ⟨1, _⟩ =>
      show Layout.meshLin [2, 2] (peer c).val [1] * 256 + q.val = Layout.meshLin [2, 2] c.val [1] * 256 + q.val
      rw [colBlock_peer]
  · -- the reference: zero plus the sum down the same column of the whole array
    show (∑ k, g k : EReal) = (Ideal.ofBits .f32 0x00000000#32 : EReal) + ∑ k : Fin 1024, _
    rw [Ideal.ofBits_zero_f32, zero_add]
    refine Finset.sum_congr rfl fun k _ => congrArg X (funext fun a => Fin.ext ?_)
    match a with
    | ⟨0, _⟩ => rfl
    | ⟨1, _⟩ => rfl

end Cert.ValueBridge

end
-- ==== Proof.lean ====
/-
  The column sums of an array cut over a 2 × 2 mesh of devices, against the sum over all rows on one device.

  Device `c` (row c / 2, column c % 2) holds the block of 512 rows and 256 columns its coordinates name. Each device sums
  its block's rows, exchanges the resulting row of 256 sums with the device in the other row of its column (its peer),
  and ends with its own sums plus the peer's: the sums over all 1024 rows of its 256 columns, which is its block of the
  reference's one row of 512 sums. Over the extended reals addition is commutative and associative, so splitting the sum
  over 1024 rows into the two halves, in either order, needs no finiteness.

  The kernel's run on the mesh (every fair interleaving terminates, nothing faults, each device's result block named as a
  term of the argument blocks, the arguments unchanged) is proved once, for any float instance: the protocol and each
  device's body, then the launch. Both frames of the kernel are that run with the values dropped; the reference's frame
  is its run read back; the value claim joins the two runs by the block-by-block identity above. The ideal pass rewrote
  nothing, so the idealization claim has no conjunct.
-/
import proofs.«901098_g7700000000001099_dist_sum_ax0_xy_m512_n256_v7x_xy2x2_f32_1_alg».proof.Defs
import proofs.«901098_g7700000000001099_dist_sum_ax0_xy_m512_n256_v7x_xy2x2_f32_1_alg».proof.Proof.Gen.Kernel
import proofs.«901098_g7700000000001099_dist_sum_ax0_xy_m512_n256_v7x_xy2x2_f32_1_alg».proof.Proof.Gen.KernelIdeal
import proofs.«901098_g7700000000001099_dist_sum_ax0_xy_m512_n256_v7x_xy2x2_f32_1_alg».proof.Proof.Gen.ReferenceIdeal
import proofs.«901098_g7700000000001099_dist_sum_ax0_xy_m512_n256_v7x_xy2x2_f32_1_alg».proof.Proof.Gen.ReferenceIdeal.Run
import proofs.«901098_g7700000000001099_dist_sum_ax0_xy_m512_n256_v7x_xy2x2_f32_1_alg».proof.Proof.Gen.ReferenceIdeal.Read
import proofs.«901098_g7700000000001099_dist_sum_ax0_xy_m512_n256_v7x_xy2x2_f32_1_alg».proof.Proof.Gen.Pre_finite_inputs_Kernel
import proofs.«901098_g7700000000001099_dist_sum_ax0_xy_m512_n256_v7x_xy2x2_f32_1_alg».proof.Proof.Gen.Pre_finite_inputs_ReferenceIdeal
import proofs.«901098_g7700000000001099_dist_sum_ax0_xy_m512_n256_v7x_xy2x2_f32_1_alg».proof.Proof.KernelLaunch
import proofs.«901098_g7700000000001099_dist_sum_ax0_xy_m512_n256_v7x_xy2x2_f32_1_alg».proof.Proof.KernelIdealLaunch
import proofs.«901098_g7700000000001099_dist_sum_ax0_xy_m512_n256_v7x_xy2x2_f32_1_alg».proof.Proof.ValueBridge

noncomputable section

namespace Cert.Proof

open Idealize.ShloMosaic Idealize.SL.Sem

/-- The word-level kernel runs and leaves its argument blocks unchanged: its run on the mesh, the values dropped. -/
theorem frame_k : Cert.frame_Kernel := fun m ρ _ =>
  (θ_run Cert.Kernel.defs _ _).mono (fun _ h c => (h c).2) (Cert.KernelProof.run_main (F := Bits) m ρ)

/-- The same of the idealized kernel. -/
theorem frame_ki : Cert.frame_KernelIdeal := fun m ρ _ =>
  (θ_run Cert.KernelIdeal.defs _ _).mono (fun _ h c => (h c).2) (Cert.KernelIdealProof.run_main (F := Ideal) m ρ)

/-- The reference runs and leaves its argument unchanged: its run read back, the value dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories where each device's argument block is its part of the reference's array, device `c` ends holding
    its own column sums plus its peer's, the reference the sums over all rows: the former is device `c`'s block of the
    latter. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdealProof.run_main (F := Ideal) m ρ)
    rw [hagree c, hagree (Cert.KernelIdealProof.peer c)]
    exact Cert.ValueBridge.value_bridge _ c
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
